-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "fold_c_268435456_13421773" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S65536x256 : Shape := ⟨2, ![65536, 256]⟩
abbrev S256 : Shape := ⟨1, ![256]⟩
abbrev S65536 : Shape := ⟨1, ![65536]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_

variable [Facts]

def fn {F : FTy → Type} [FloatOps F] (main_arg0 : FVec F S256x256 .f32) (main_arg1 : FVec F S65536x256 .f32) (main_arg2 : IVec S256 32) (main_arg3 : IVec S65536 32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  main_v8
-- ==== Kernel.lean ====
abbrev S256x256 : Shape := ⟨2, ![256, 256]⟩
abbrev S65536x256 : Shape := ⟨2, ![65536, 256]⟩
abbrev S256 : Shape := ⟨1, ![256]⟩
abbrev S65536 : Shape := ⟨1, ![65536]⟩
abbrev S_ : Shape := ⟨0, ![]⟩
abbrev S256x1 : Shape := ⟨2, ![256, 1]⟩
abbrev S4096x256 : Shape := ⟨2, ![4096, 256]⟩
abbrev S8192x256 : Shape := ⟨2, ![8192, 256]⟩
abbrev S65536x1 : Shape := ⟨2, ![65536, 1]⟩
abbrev S8192 : Shape := ⟨1, ![8192]⟩
abbrev S8192x1 : Shape := ⟨2, ![8192, 1]⟩
abbrev S256x8192 : Shape := ⟨2, ![256, 8192]⟩
abbrev S1x8192 : Shape := ⟨2, ![1, 8192]⟩
abbrev S256x2 : Shape := ⟨2, ![256, 2]⟩

abbrev nBuf : Space → Nat
  | .hbm => 88
  | .vmem => 5
  | .smem => 0
  | _ => 0

abbrev bufTy : (tb : Table) → Fin (tcTables nBuf tb) → BufTy
  | .hbm, ⟨0, _⟩ => ⟨S256x256, .f32⟩
  | .hbm, ⟨1, _⟩ => ⟨S65536x256, .f32⟩
  | .hbm, ⟨2, _⟩ => ⟨S256, .i32⟩
  | .hbm, ⟨3, _⟩ => ⟨S65536, .i32⟩
  | .hbm, ⟨4, _⟩ => ⟨S256x256, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S65536x256, .f32⟩
  | .hbm, ⟨16, _⟩ => ⟨S_, .f32⟩
  | .hbm, ⟨17, _⟩ => ⟨S8192x256, .f32⟩
  | .hbm, ⟨18, _⟩ => ⟨S65536x1, .i32⟩
  | .hbm, ⟨19, _⟩ => ⟨S8192x256, .f32⟩
  | .hbm, ⟨20, _⟩ => ⟨S_, .f32⟩
  | .hbm, ⟨21, _⟩ => ⟨S65536, .f32⟩
  | .hbm, ⟨22, _⟩ => ⟨S_, .f32⟩
  | .hbm, ⟨23, _⟩ => ⟨S8192, .f32⟩
  | .hbm, ⟨24, _⟩ => ⟨S65536x1, .i32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .i1⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x256, .f32⟩
  | .hbm, ⟨37, _⟩ => ⟨S8192x256, .f32⟩
  | .hbm, ⟨38, _⟩ => ⟨S256x8192, .f32⟩
  | .hbm, ⟨39, _⟩ => ⟨S256x8192, .f32⟩
  | .hbm, ⟨40, _⟩ => ⟨S1x8192, .f32⟩
  | .hbm, ⟨41, _⟩ => ⟨S256x8192, .f32⟩
  | .hbm, ⟨42, _⟩ => ⟨S256x8192, .f32⟩
  | .hbm, ⟨43, _⟩ => ⟨S_, .f32⟩
  | .hbm, ⟨44, _⟩ => ⟨S256, .f32⟩
  | .hbm, ⟨45, _⟩ => ⟨S256x1, .f32⟩
  | .hbm, ⟨46, _⟩ => ⟨S_, .f32⟩
  | .hbm, ⟨47, _⟩ => ⟨S256x1, .f32⟩
  | .hbm, ⟨48, _⟩ => ⟨S256x1, .f32⟩
  | .hbm, ⟨49, _⟩ => ⟨S256x8192, .f32⟩
  | .hbm, ⟨50, _⟩ => ⟨S256x8192, .f32⟩
  | .hbm, ⟨51, _⟩ => ⟨S_, .i32⟩
  | .hbm, ⟨52, _⟩ => ⟨S256, .i32⟩
  | .hbm, ⟨53, _⟩ => ⟨S256, .i1⟩
  | .hbm, ⟨54, _⟩ => ⟨S_, .i32⟩
  | .hbm, ⟨55, _⟩ => ⟨S256, .i32⟩
  | .hbm, ⟨56, _⟩ => ⟨S256, .i32⟩
  | .hbm, ⟨57, _⟩ => ⟨S256, .i32⟩
  | .hbm, ⟨58, _⟩ => ⟨S256x1, .i32⟩
  | .hbm, ⟨59, _⟩ => ⟨S256, .i32⟩
  | .hbm, ⟨60, _⟩ => ⟨S_, .f32⟩
  | .hbm, ⟨61, _⟩ => ⟨S256x8192, .f32⟩
  | .hbm, ⟨62, _⟩ => ⟨S256x8192, .f32⟩
  | .hbm, ⟨63, _⟩ => ⟨S256x8192, .f32⟩
  | .hbm, ⟨64, _⟩ => ⟨S256, .i32⟩
  | .hbm, ⟨65, _⟩ => ⟨S_, .i32⟩
  | .hbm, ⟨66, _⟩ => ⟨S256, .i32⟩
  | .hbm, ⟨67, _⟩ => ⟨S256, .i1⟩
  | .hbm, ⟨68, _⟩ => ⟨S_, .i32⟩
  | .hbm, ⟨69, _⟩ => ⟨S256, .i32⟩
  | .hbm, ⟨70, _⟩ => ⟨S256, .i32⟩
  | .hbm, ⟨71, _⟩ => ⟨S256, .i32⟩
  | .hbm, ⟨72, _⟩ => ⟨S_, .i32⟩
  | .hbm, ⟨73, _⟩ => ⟨S256, .i32⟩
  | .hbm, ⟨74, _⟩ => ⟨S256, .i1⟩
  | .hbm, ⟨75, _⟩ => ⟨S_, .i32⟩
  | .hbm, ⟨76, _⟩ => ⟨S256, .i32⟩
  | .hbm, ⟨77, _⟩ => ⟨S256, .i32⟩
  | .hbm, ⟨78, _⟩ => ⟨S256, .i32⟩
  | .hbm, ⟨79, _⟩ => ⟨S256x1, .i32⟩
  | .hbm, ⟨80, _⟩ => ⟨S256x1, .i32⟩
  | .hbm, ⟨81, _⟩ => ⟨S256x2, .i32⟩
  | .hbm, ⟨82, _⟩ => ⟨S256, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S4096x256, .f32⟩
  | .local _ .vmem, ⟨4, _⟩ => ⟨S4096x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_v62 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S256x256_S256_d1 : S256x256.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  transposes_S256x256_S256x256_1_0 : S256x256.Transposes [1, 0] S256x256
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S8192x256 : S_.BroadcastsInDim S8192x256 (![] : Fin 0 → Fin S8192x256.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  transposes_S8192x1_S1x8192_1_0 : S8192x1.Transposes [1, 0] S1x8192
  bcast_S1x8192_S256x8192_0_1 : S1x8192.BroadcastsInDim S256x8192 (![0, 1] : Fin 2 → Fin S256x8192.rank)
  reducesTo_S256x8192_S256_d1 : S256x8192.ReducesTo [1] S256
  bcast_S256x1_S256x8192_0_1 : S256x1.BroadcastsInDim S256x8192 (![0, 1] : Fin 2 → Fin S256x8192.rank)
  bcast_S_S256 : S_.BroadcastsInDim S256 (![] : Fin 0 → Fin S256.rank)
  bcast_S_S256x8192 : S_.BroadcastsInDim S256x8192 (![] : Fin 0 → Fin S256x8192.rank)
  concatenates_S256x1_S256x1_S256x2_d1 : Shape.Concatenates [S256x1, S256x1] S256x2 1
  reducesTo_S256_S_d0 : S256.ReducesTo [0] S_
  dot_S4096x256_S256x256_S4096x256_1_0_0_1_n_n_wf : DotDims.WF S4096x256 S256x256 S4096x256 [1] [0] [0] [1] [] []
  scatter_S8192x256_S65536x1_S65536x256_1_0_0_1_wf : ScatterDims.WF S8192x256 S65536x1 S65536x256 [1] [0] [0] 1
  scatter_S8192_S65536x1_S65536_n_0_0_1_wf : ScatterDims.WF S8192 S65536x1 S65536 [] [0] [0] 1
  gather_S65536_S256x1_S256_n_0_n_n_0_1_1_wf : GatherDims.WF S65536 S256x1 S256 [] [0] [] [0] [] 1 ![1]
  gather_S256x8192_S256x2_S256_n_01_n_n_01_1_11_wf : GatherDims.WF S256x8192 S256x2 S256 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S65536x256.size a
  hwx0_2 : ∀ i : grid0.Coords, EltTy.bits .f32 = 32 ∨ (Rect.block (s := S65536x256) S4096x256.size (cc0_transform_2 i) (hinb0_2 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def scatter_S8192x256_S65536x1_S65536x256_1_0_0_1 : ScatterDims S8192x256 S65536x1 S65536x256 where
  updateWindowDims := [1]
  insertedWindowDims := [0]
  scatterDimsToOperandDims := [0]
  indexVectorDim := 1
  wf := scatter_S8192x256_S65536x1_S65536x256_1_0_0_1_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def gather_S65536_S256x1_S256_n_0_n_n_0_1_1 : GatherDims S65536 S256x1 S256 where
  offsetDims := []
  collapsedSliceDims := [0]
  operandBatchingDims := []
  startIndicesBatchingDims := []
  startIndexMap := [0]
  indexVectorDim := 1
  sliceSizes := ![1]
  wf := gather_S65536_S256x1_S256_n_0_n_n_0_1_1_wf
def gather_S256x8192_S256x2_S256_n_01_n_n_01_1_11 : GatherDims S256x8192 S256x2 S256 where
  offsetDims := []
  collapsedSliceDims := [0, 1]
  operandBatchingDims := []
  startIndicesBatchingDims := []
  startIndexMap := [0, 1]
  indexVectorDim := 1
  sliceSizes := ![1, 1]
  wf := gather_S256x8192_S256x2_S256_n_01_n_n_01_1_11_wf

abbrev win0_0 : Pipeline.Window sig grid0 :=
  Pipeline.Window.ofSpec (Memref.whole main_arg1) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x256 : Shape := ⟨2, ![256, 256]⟩
abbrev S65536x256 : Shape := ⟨2, ![65536, 256]⟩
abbrev S256 : Shape := ⟨1, ![256]⟩
abbrev S65536 : Shape := ⟨1, ![65536]⟩
abbrev S_ : Shape := ⟨0, ![]⟩
abbrev S256x1 : Shape := ⟨2, ![256, 1]⟩
abbrev S256x65536 : Shape := ⟨2, ![256, 65536]⟩
abbrev S8192x256 : Shape := ⟨2, ![8192, 256]⟩
abbrev S65536x1 : Shape := ⟨2, ![65536, 1]⟩
abbrev S8192 : Shape := ⟨1, ![8192]⟩
abbrev S8192x1 : Shape := ⟨2, ![8192, 1]⟩
abbrev S256x8192 : Shape := ⟨2, ![256, 8192]⟩
abbrev S1x8192 : Shape := ⟨2, ![1, 8192]⟩
abbrev S256x2 : Shape := ⟨2, ![256, 2]⟩

abbrev nBuf : Space → Nat
  | .hbm => 92
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S65536x256, .f32⟩
  | .hbm, ⟨2, _⟩ => ⟨S256, .i32⟩
  | .hbm, ⟨3, _⟩ => ⟨S65536, .i32⟩
  | .hbm, ⟨4, _⟩ => ⟨S256x256, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x256, .f32⟩
  | .hbm, ⟨13, _⟩ => ⟨S256x256, .f32⟩
  | .hbm, ⟨14, _⟩ => ⟨S256x65536, .f32⟩
  | .hbm, ⟨15, _⟩ => ⟨S256x65536, .f32⟩
  | .hbm, ⟨16, _⟩ => ⟨S_, .f32⟩
  | .hbm, ⟨17, _⟩ => ⟨S256x65536, .f32⟩
  | .hbm, ⟨18, _⟩ => ⟨S256x65536, .f32⟩
  | .hbm, ⟨19, _⟩ => ⟨S65536x256, .f32⟩
  | .hbm, ⟨20, _⟩ => ⟨S_, .f32⟩
  | .hbm, ⟨21, _⟩ => ⟨S8192x256, .f32⟩
  | .hbm, ⟨22, _⟩ => ⟨S65536x1, .i32⟩
  | .hbm, ⟨23, _⟩ => ⟨S8192x256, .f32⟩
  | .hbm, ⟨24, _⟩ => ⟨S_, .f32⟩
  | .hbm, ⟨25, _⟩ => ⟨S65536, .f32⟩
  | .hbm, ⟨26, _⟩ => ⟨S_, .f32⟩
  | .hbm, ⟨27, _⟩ => ⟨S8192, .f32⟩
  | .hbm, ⟨28, _⟩ => ⟨S65536x1, .i32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .i1⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x256, .f32⟩
  | .hbm, ⟨41, _⟩ => ⟨S8192x256, .f32⟩
  | .hbm, ⟨42, _⟩ => ⟨S256x8192, .f32⟩
  | .hbm, ⟨43, _⟩ => ⟨S256x8192, .f32⟩
  | .hbm, ⟨44, _⟩ => ⟨S1x8192, .f32⟩
  | .hbm, ⟨45, _⟩ => ⟨S256x8192, .f32⟩
  | .hbm, ⟨46, _⟩ => ⟨S256x8192, .f32⟩
  | .hbm, ⟨47, _⟩ => ⟨S_, .f32⟩
  | .hbm, ⟨48, _⟩ => ⟨S256, .f32⟩
  | .hbm, ⟨49, _⟩ => ⟨S256x1, .f32⟩
  | .hbm, ⟨50, _⟩ => ⟨S_, .f32⟩
  | .hbm, ⟨51, _⟩ => ⟨S256x1, .f32⟩
  | .hbm, ⟨52, _⟩ => ⟨S256x1, .f32⟩
  | .hbm, ⟨53, _⟩ => ⟨S256x8192, .f32⟩
  | .hbm, ⟨54, _⟩ => ⟨S256x8192, .f32⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S_, .i32⟩
  | .hbm, ⟨59, _⟩ => ⟨S256, .i32⟩
  | .hbm, ⟨60, _⟩ => ⟨S256, .i32⟩
  | .hbm, ⟨61, _⟩ => ⟨S256, .i32⟩
  | .hbm, ⟨62, _⟩ => ⟨S256x1, .i32⟩
  | .hbm, ⟨63, _⟩ => ⟨S256, .i32⟩
  | .hbm, ⟨64, _⟩ => ⟨S_, .f32⟩
  | .hbm, ⟨65, _⟩ => ⟨S256x8192, .f32⟩
  | .hbm, ⟨66, _⟩ => ⟨S256x8192, .f32⟩
  | .hbm, ⟨67, _⟩ => ⟨S256x8192, .f32⟩
  | .hbm, ⟨68, _⟩ => ⟨S256, .i32⟩
  | .hbm, ⟨69, _⟩ => ⟨S_, .i32⟩
  | .hbm, ⟨70, _⟩ => ⟨S256, .i32⟩
  | .hbm, ⟨71, _⟩ => ⟨S256, .i1⟩
  | .hbm, ⟨72, _⟩ => ⟨S_, .i32⟩
  | .hbm, ⟨73, _⟩ => ⟨S256, .i32⟩
  | .hbm, ⟨74, _⟩ => ⟨S256, .i32⟩
  | .hbm, ⟨75, _⟩ => ⟨S256, .i32⟩
  | .hbm, ⟨76, _⟩ => ⟨S_, .i32⟩
  | .hbm, ⟨77, _⟩ => ⟨S256, .i32⟩
  | .hbm, ⟨78, _⟩ => ⟨S256, .i1⟩
  | .hbm, ⟨79, _⟩ => ⟨S_, .i32⟩
  | .hbm, ⟨80, _⟩ => ⟨S256, .i32⟩
  | .hbm, ⟨81, _⟩ => ⟨S256, .i32⟩
  | .hbm, ⟨82, _⟩ => ⟨S256, .i32⟩
  | .hbm, ⟨83, _⟩ => ⟨S256x1, .i32⟩
  | .hbm, ⟨84, _⟩ => ⟨S256x1, .i32⟩
  | .hbm, ⟨85, _⟩ => ⟨S256x2, .i32⟩
  | .hbm, ⟨86, _⟩ => ⟨S256, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_c_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_cst_15 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  reducesTo_S256x256_S256_d1 : S256x256.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  transposes_S65536x256_S256x65536_1_0 : S65536x256.Transposes [1, 0] S256x65536
  bcast_S_S256x65536 : S_.BroadcastsInDim S256x65536 (![] : Fin 0 → Fin S256x65536.rank)
  transposes_S256x65536_S65536x256_1_0 : S256x65536.Transposes [1, 0] S65536x256
  bcast_S_S8192x256 : S_.BroadcastsInDim S8192x256 (![] : Fin 0 → Fin S8192x256.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  transposes_S8192x1_S1x8192_1_0 : S8192x1.Transposes [1, 0] S1x8192
  bcast_S1x8192_S256x8192_0_1 : S1x8192.BroadcastsInDim S256x8192 (![0, 1] : Fin 2 → Fin S256x8192.rank)
  reducesTo_S256x8192_S256_d1 : S256x8192.ReducesTo [1] S256
  bcast_S256x1_S256x8192_0_1 : S256x1.BroadcastsInDim S256x8192 (![0, 1] : Fin 2 → Fin S256x8192.rank)
  bcast_S_S256 : S_.BroadcastsInDim S256 (![] : Fin 0 → Fin S256.rank)
  bcast_S_S256x8192 : S_.BroadcastsInDim S256x8192 (![] : Fin 0 → Fin S256x8192.rank)
  concatenates_S256x1_S256x1_S256x2_d1 : Shape.Concatenates [S256x1, S256x1] S256x2 1
  reducesTo_S256_S_d0 : S256.ReducesTo [0] S_
  dot_S256x256_S256x65536_S256x65536_1_0_0_1_n_n_wf : DotDims.WF S256x256 S256x65536 S256x65536 [1] [0] [0] [1] [] []
  scatter_S8192x256_S65536x1_S65536x256_1_0_0_1_wf : ScatterDims.WF S8192x256 S65536x1 S65536x256 [1] [0] [0] 1
  scatter_S8192_S65536x1_S65536_n_0_0_1_wf : ScatterDims.WF S8192 S65536x1 S65536 [] [0] [0] 1
  gather_S65536_S256x1_S256_n_0_n_n_0_1_1_wf : GatherDims.WF S65536 S256x1 S256 [] [0] [] [0] [] 1 ![1]
  gather_S256x8192_S256x2_S256_n_01_n_n_01_1_11_wf : GatherDims.WF S256x8192 S256x2 S256 [] [0, 1] [] [0, 1] [] 1 ![1, 1]

variable [Facts₀]

def dot_S256x256_S256x65536_S256x65536_1_0_0_1_n_n : DotDims S256x256 S256x65536 S256x65536 where
  lhsContracting := [1]
  rhsContracting := [0]
  lhsNonContracting := [0]
  rhsNonContracting := [1]
  lhsBatch := []
  rhsBatch := []
  wf := dot_S256x256_S256x65536_S256x65536_1_0_0_1_n_n_wf
def scatter_S8192x256_S65536x1_S65536x256_1_0_0_1 : ScatterDims S8192x256 S65536x1 S65536x256 where
  updateWindowDims := [1]
  insertedWindowDims := [0]
  scatterDimsToOperandDims := [0]
  indexVectorDim := 1
  wf := scatter_S8192x256_S65536x1_S65536x256_1_0_0_1_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def gather_S65536_S256x1_S256_n_0_n_n_0_1_1 : GatherDims S65536 S256x1 S256 where
  offsetDims := []
  collapsedSliceDims := [0]
  operandBatchingDims := []
  startIndicesBatchingDims := []
  startIndexMap := [0]
  indexVectorDim := 1
  sliceSizes := ![1]
  wf := gather_S65536_S256x1_S256_n_0_n_n_0_1_1_wf
def gather_S256x8192_S256x2_S256_n_01_n_n_01_1_11 : GatherDims S256x8192 S256x2 S256 where
  offsetDims := []
  collapsedSliceDims := [0, 1]
  operandBatchingDims := []
  startIndicesBatchingDims := []
  startIndexMap := [0, 1]
  indexVectorDim := 1
  sliceSizes := ![1, 1]
  wf := gather_S256x8192_S256x2_S256_n_01_n_n_01_1_11_wf

class Facts : Prop extends Facts₀ where

variable [Facts]
-- ==== Proof.FrameBits.lean ====
/-
  The kernel program as printed runs to its end, faults nowhere, and leaves its argument arrays as launched.

  The program is eleven host operations (the row norms of the first argument, the clamp from below, the quotient and
  its transpose), ONE kernel region over sixteen row blocks of the second argument, and seventy-two host operations
  on the region's output.  At grid point t the region stages rows 4096·t … 4096·t + 4095 of the second argument
  (window 0), the whole 256 × 256 transposed quotient (window 1, the same block at every point) and writes back rows
  4096·t … 4096·t + 4095 of the scores array (window 2).  The body loads the two input blocks whole, loads the output
  block (a value it never uses), and stores ONE value over the whole output block: the product of the two blocks
  scaled by its literal constant.

  What is proved here, for every float family:
  * the host operations before the region change none of the four arguments, and neither do the seventy-two after
    it, which also write no array the region stages and touch only buffers that outlive the region;
  * the body, started on staging buffers that hold the two input blocks, ends with those unchanged and the output
    buffer at the stored value read through its one covering rectangle;
  * hence, by the launch theorem for "host operations, a region, host operations", every weakly fair execution
    ends, with every staged array at what the write-backs assemble and every other live buffer at what the later
    host operations compute from the region's exit contents; the arguments are among those, unchanged.
-/
import proofs.«159787_j57346403336648_1_alg».proof.Proof.Gen.Kernel.Launch
import proofs.«159787_j57346403336648_1_alg».proof.Proof.Gen.Kernel.Skeleton
import proofs.«159787_j57346403336648_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The eleven host operations before the region, as the two stretches the program lists them in. -/
abbrev before : List (List (HloOp τ sig (Elt F))) := [main_part0_ops0, main_part0_ops1]
/-- The seventy-two host operations after the region, as the two stretches (52 and 20) the program lists them in. -/
abbrev later : List (List (HloOp τ sig (Elt F))) := [main_part0_ops2, main_part1_ops0]

/-- A core's live buffers when the region is entered: the launch contents after the eleven earlier operations. -/
abbrev V0 (c : Dev nD) : Valuation τ sig (Elt F) := StableHlo.after (List.flatten (before (F := F))) (fun b => m (c, b))
/-- The same, read at a TensorCore buffer. -/
abbrev V (c : Dev nD) (b : Ref sig .tc) : Buf (Elt F) ((c : Thread nD τ).loc b) := V0 m c (Proc.devRef .tc b)

theorem before0_fresh : (main_part0_ops0 : List (HloOp τ sig (Elt F))).Forall fun op => op.fresh = ∅ := by
  simp only [List.Forall]; repeat' constructor
theorem before1_fresh : (main_part0_ops1 : List (HloOp τ sig (Elt F))).Forall fun op => op.fresh = ∅ := by
  simp only [List.Forall]; repeat' constructor
theorem later0_fresh : (main_part0_ops2 : List (HloOp τ sig (Elt F))).Forall fun op => op.fresh = ∅ := by
  simp only [List.Forall]; repeat' constructor
theorem later1_fresh : (main_part1_ops0 : List (HloOp τ sig (Elt F))).Forall fun op => op.fresh = ∅ := by
  simp only [List.Forall]; repeat' constructor

/-- The program is the earlier operations, the region, the later operations: it reduces to the region continued by
    the later ones, the live buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main before later (by simp only [List.Forall]; exact ⟨main_part0_ops0_sub, main_part0_ops1_sub⟩)
    (by simp only [List.Forall]; exact ⟨before0_fresh, before1_fresh⟩) main_chain_windows

/-- Every later operation reads and writes only buffers that outlive the region: with no prefetched table those are
    the staged arrays and the buffers that bypass the region. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp main_part0_ops2_sub) op hop)
  · exact Pipeline.sub_ucRefs op ((List.forall_iff_forall_mem.mp main_part1_ops0_sub) op hop)

/-- None of them allocates. -/
theorem later_fresh : ∀ ops ∈ (later : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp later0_fresh) op hop
  · exact (List.forall_iff_forall_mem.mp later1_fresh) op hop

/-- Each of the first fifty-two later operations writes one buffer of its own, which is none of the three staged
    arrays (the second argument, the transposed quotient, the scores). -/
theorem later0_keeps : (main_part0_ops2 : List (HloOp τ sig (Elt F))).Forall fun op =>
    ∀ w, Proc.devRef .tc (Pipeline.arrRef spec0 w) ∉ op.writes := by
  simp only [main_part0_ops2, List.Forall, StableHlo.nullary_writes, StableHlo.unary_writes, StableHlo.binary_writes, StableHlo.ternary_writes, Finset.mem_singleton]
  repeat' apply And.intro
  all_goals (intro w; fin_cases w <;> exact StableHlo.devRef_ne_of_ne (by decide))
/-- The same of the last twenty. -/
theorem later1_keeps : (main_part1_ops0 : List (HloOp τ sig (Elt F))).Forall fun op =>
    ∀ w, Proc.devRef .tc (Pipeline.arrRef spec0 w) ∉ op.writes := by
  simp only [main_part1_ops0, List.Forall, StableHlo.nullary_writes, StableHlo.unary_writes, StableHlo.binary_writes, StableHlo.ternary_writes, Finset.mem_singleton]
  repeat' apply And.intro
  all_goals (intro w; fin_cases w <;> exact StableHlo.devRef_ne_of_ne (by decide))

theorem later_keeps : ∀ ops ∈ (later : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · exact (List.forall_iff_forall_mem.mp later0_keeps) op hop
  · exact (List.forall_iff_forall_mem.mp later1_keeps) op hop

/-! ## The arguments are written by no host operation -/

/-- No operation of a list writes the buffer `b` when each writes one buffer other than `b`. -/
macro "no_write" : tactic => `(tactic| (
  simp only [before, later, main_part0_ops0, main_part0_ops1, main_part0_ops2, main_part1_ops0,
    List.flatten_cons, List.flatten_nil, List.append_nil, List.cons_append, List.nil_append, List.Forall,
    StableHlo.nullary_writes, StableHlo.unary_writes, StableHlo.binary_writes, StableHlo.ternary_writes, Finset.mem_singleton]
  repeat' apply And.intro
  all_goals exact StableHlo.devRef_ne_of_ne (by decide)))

theorem before_arg0 : ((before (F := F)).flatten).Forall fun op => Proc.devRef .tc main_arg0 ∉ op.writes := by no_write
theorem before_arg1 : ((before (F := F)).flatten).Forall fun op => Proc.devRef .tc main_arg1 ∉ op.writes := by no_write
theorem before_arg2 : ((before (F := F)).flatten).Forall fun op => Proc.devRef .tc main_arg2 ∉ op.writes := by no_write
theorem before_arg3 : ((before (F := F)).flatten).Forall fun op => Proc.devRef .tc main_arg3 ∉ op.writes := by no_write
theorem later_arg0 : ((later (F := F)).flatten).Forall fun op => Proc.devRef .tc main_arg0 ∉ op.writes := by no_write
theorem later_arg2 : ((later (F := F)).flatten).Forall fun op => Proc.devRef .tc main_arg2 ∉ op.writes := by no_write
theorem later_arg3 : ((later (F := F)).flatten).Forall fun op => Proc.devRef .tc main_arg3 ∉ op.writes := by no_write

/-- The region finds each argument as launched. -/
theorem V_main_arg0 (c : Dev nD) : V m c main_arg0 = m ((c : Thread nD τ).loc main_arg0) :=
  StableHlo.after_of_forall_not_mem (b := Proc.devRef .tc main_arg0) _ _ (List.forall_iff_forall_mem.mp before_arg0)
theorem V_main_arg1 (c : Dev nD) : V m c main_arg1 = m ((c : Thread nD τ).loc main_arg1) :=
  StableHlo.after_of_forall_not_mem (b := Proc.devRef .tc main_arg1) _ _ (List.forall_iff_forall_mem.mp before_arg1)
theorem V_main_arg2 (c : Dev nD) : V m c main_arg2 = m ((c : Thread nD τ).loc main_arg2) :=
  StableHlo.after_of_forall_not_mem (b := Proc.devRef .tc main_arg2) _ _ (List.forall_iff_forall_mem.mp before_arg2)
theorem V_main_arg3 (c : Dev nD) : V m c main_arg3 = m ((c : Thread nD τ).loc main_arg3) :=
  StableHlo.after_of_forall_not_mem (b := Proc.devRef .tc main_arg3) _ _ (List.forall_iff_forall_mem.mp before_arg3)

/-- After the later operations each argument the region does not stage is still as launched. -/
theorem W_main_arg0 (dats : (p : Fin _) → (c : Dev nD) → Dat τ (Elt F) Unit ℕ (UR sig nD τ) ℕ (cfgs p) c) (c : Dev nD) :
    Pipeline.afterTail₀ cfgs dats 0 (V0 m) later c main_arg0 = m ((c : Thread nD τ).loc main_arg0) := by
  unfold Pipeline.afterTail₀
  rw [StableHlo.after_of_forall_not_mem (b := Proc.devRef .tc main_arg0) _ _ (List.forall_iff_forall_mem.mp later_arg0),
    Pipeline.withArrays_of_ne _ c (V0 m c) _ main_arg0 (by exact (by decide : ∀ w, Pipeline.arrRef spec0 w ≠ main_arg0))]
  exact V_main_arg0 m c
theorem W_main_arg2 (dats : (p : Fin _) → (c : Dev nD) → Dat τ (Elt F) Unit ℕ (UR sig nD τ) ℕ (cfgs p) c) (c : Dev nD) :
    Pipeline.afterTail₀ cfgs dats 0 (V0 m) later c main_arg2 = m ((c : Thread nD τ).loc main_arg2) := by
  unfold Pipeline.afterTail₀
  rw [StableHlo.after_of_forall_not_mem (b := Proc.devRef .tc main_arg2) _ _ (List.forall_iff_forall_mem.mp later_arg2),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) later c main_arg3 = m ((c : Thread nD τ).loc main_arg3) := by
  unfold Pipeline.afterTail₀
  rw [StableHlo.after_of_forall_not_mem (b := Proc.devRef .tc main_arg3) _ _ (List.forall_iff_forall_mem.mp later_arg3),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not:
    where it is not fetched the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that ends with every staged array at what
    the write-backs assemble and every other live buffer at what the later operations leave ends with the four
    arguments as launched: the second argument is a staged INPUT, never written back; the other three bypass the
    region and are written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) later))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (Pipeline.mem_restRefs_of main_arg0 (by decide) (by decide))).trans (W_main_arg0 m dats c),
      ((h c).1 0).trans (((dats 0 c).arrAt_in 0 rfl _).trans ((hA c 0).trans (V_main_arg1 m c))),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c)⟩) h

/-! ## The body -/

/-- The whole 4096 × 256 block, and the whole 256 × 256 block, as the rectangles the body's accesses name. -/
abbrev rBig : Rect S4096x256 := Rect.unit (s := S4096x256) ![0, 0] S4096x256.size inb_S4096x256_S4096x256_0_0
abbrev rSq : Rect S256x256 := Rect.unit (s := S256x256) ![0, 0] S256x256.size inb_S256x256_S256x256_0_0

/-- The output staging buffer after the body, from the two input blocks: its one store, over the whole block. -/
def out0_2 (x0 : Vec F S4096x256 .f32) (x1 : Vec F S256x256 .f32) : Vec F S4096x256 .f32 :=
  View.canon [⟨rBig, k0_pay1 (View.ld x0 rBig) (View.ld x1 rSq)⟩]

/-- The one stored rectangle is the whole block, so it covers it. -/
theorem cover0_2 (p0 : Vec F S4096x256 .f32) (y : S4096x256.Idx) :
    ∃ pc ∈ ([⟨rBig, p0⟩] : List (View.Piece (Elt F) S4096x256 .f32)), y ∈ pc.1.set :=
  View.cover_of_tiled [⟨rBig, p0⟩] S4096x256.size (by rfl) y

set_option maxHeartbeats 1000000 in
/-- The body on whole staging buffers — the inputs' at `x0`, `x1`, the output's at anything — ends with the inputs'
    unchanged and the output's at `out0_2 x0 x1`. -/
theorem sound_kernel (c : Dev nD) (E : Set ℕ) (i : grid0.Coords) (arg1 : Memref sig .tc .vmem S4096x256 .f32) (harg1 : arg1.IsWhole)
    (arg2 : Memref sig .tc .vmem S256x256 .f32) (harg2 : arg2.IsWhole) (arg3 : Memref sig .tc .vmem S4096x256 .f32) (harg3 : arg3.IsWhole)
    (x0 : Vec F S4096x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__feature_matmul_kernel i arg1 harg1 arg2 harg2 arg3 harg3) K := by
  simp only [cc0__feature_matmul_kernel_eq_skeleton]; unfold cc0__feature_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- On core `c`: the arrays as the region finds them; after the body at point `t` each input buffer at its block and
    the output buffer at `out0_2` of the two input blocks; the invariant only what the body never touches; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program ends, every staged array at what
    the write-backs assemble from the proof data and every other live buffer as the later operations leave it. -/
theorem run_main : θ_run defs (onTc (τ := τ) (main (F := F))) (s₀ m ρ) (Pipeline.FramePost cfgs (dats m) 0 (Pipeline.afterTail₀ cfgs (dats m) 0 (V0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := later_sub) (hfresh := later_fresh) (hkeep := later_keeps)
    (hmain := hmain m Variants.none) (hA := A_eq m) (hΦ := fun _ _ => rfl)

/-- The frame claim of the program, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.FrameIdeal.lean ====
/-
  The idealized kernel program runs to its end, faults nowhere, and leaves its argument arrays as launched.

  The program is eleven host operations (the row norms of the first argument, the clamp from below, the quotient and
  its transpose), ONE kernel region over sixteen row blocks of the second argument, and seventy-two host operations
  on the region's output.  At grid point t the region stages rows 4096·t … 4096·t + 4095 of the second argument
  (window 0), the whole 256 × 256 transposed quotient (window 1, the same block at every point) and writes back rows
  4096·t … 4096·t + 4095 of the scores array (window 2).  The body loads the two input blocks whole, loads the output
  block (a value it never uses), and stores ONE value over the whole output block: the product of the two blocks
  scaled by the named constant.

  What is proved here, for every float family:
  * the host operations before the region change none of the four arguments, and neither do the seventy-two after
    it, which also write no array the region stages and touch only buffers that outlive the region;
  * the body, started on staging buffers that hold the two input blocks, ends with those unchanged and the output
    buffer at the stored value read through its one covering rectangle;
  * hence, by the launch theorem for "host operations, a region, host operations", every weakly fair execution
    ends, with every staged array at what the write-backs assemble and every other live buffer at what the later
    host operations compute from the region's exit contents; the arguments are among those, unchanged.
-/
import proofs.«159787_j57346403336648_1_alg».proof.Proof.Gen.KernelIdeal.Launch
import proofs.«159787_j57346403336648_1_alg».proof.Proof.Gen.KernelIdeal.Skeleton
import proofs.«159787_j57346403336648_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program around its region -/

/-- The eleven host operations before the region, as the two stretches the program lists them in. -/
abbrev before : List (List (HloOp τ sig (Elt F))) := [main_part0_ops0, main_part0_ops1]
/-- The seventy-two host operations after the region, as the two stretches (52 and 20) the program lists them in. -/
abbrev later : List (List (HloOp τ sig (Elt F))) := [main_part0_ops2, main_part1_ops0]

/-- A core's live buffers when the region is entered: the launch contents after the eleven earlier operations. -/
abbrev V0 (c : Dev nD) : Valuation τ sig (Elt F) := StableHlo.after (List.flatten (before (F := F))) (fun b => m (c, b))
/-- The same, read at a TensorCore buffer. -/
abbrev V (c : Dev nD) (b : Ref sig .tc) : Buf (Elt F) ((c : Thread nD τ).loc b) := V0 m c (Proc.devRef .tc b)

theorem before0_fresh : (main_part0_ops0 : List (HloOp τ sig (Elt F))).Forall fun op => op.fresh = ∅ := by
  simp only [List.Forall]; repeat' constructor
theorem before1_fresh : (main_part0_ops1 : List (HloOp τ sig (Elt F))).Forall fun op => op.fresh = ∅ := by
  simp only [List.Forall]; repeat' constructor
theorem later0_fresh : (main_part0_ops2 : List (HloOp τ sig (Elt F))).Forall fun op => op.fresh = ∅ := by
  simp only [List.Forall]; repeat' constructor
theorem later1_fresh : (main_part1_ops0 : List (HloOp τ sig (Elt F))).Forall fun op => op.fresh = ∅ := by
  simp only [List.Forall]; repeat' constructor

/-- The program is the earlier operations, the region, the later operations: it reduces to the region continued by
    the later ones, the live buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main before later (by simp only [List.Forall]; exact ⟨main_part0_ops0_sub, main_part0_ops1_sub⟩)
    (by simp only [List.Forall]; exact ⟨before0_fresh, before1_fresh⟩) main_chain_windows

/-- Every later operation reads and writes only buffers that outlive the region: with no prefetched table those are
    the staged arrays and the buffers that bypass the region. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp main_part0_ops2_sub) op hop)
  · exact Pipeline.sub_ucRefs op ((List.forall_iff_forall_mem.mp main_part1_ops0_sub) op hop)

/-- None of them allocates. -/
theorem later_fresh : ∀ ops ∈ (later : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp later0_fresh) op hop
  · exact (List.forall_iff_forall_mem.mp later1_fresh) op hop

/-- Each of the first fifty-two later operations writes one buffer of its own, which is none of the three staged
    arrays (the second argument, the transposed quotient, the scores). -/
theorem later0_keeps : (main_part0_ops2 : List (HloOp τ sig (Elt F))).Forall fun op =>
    ∀ w, Proc.devRef .tc (Pipeline.arrRef spec0 w) ∉ op.writes := by
  simp only [main_part0_ops2, List.Forall, StableHlo.nullary_writes, StableHlo.unary_writes, StableHlo.binary_writes, StableHlo.ternary_writes, Finset.mem_singleton]
  repeat' apply And.intro
  all_goals (intro w; fin_cases w <;> exact StableHlo.devRef_ne_of_ne (by decide))
/-- The same of the last twenty. -/
theorem later1_keeps : (main_part1_ops0 : List (HloOp τ sig (Elt F))).Forall fun op =>
    ∀ w, Proc.devRef .tc (Pipeline.arrRef spec0 w) ∉ op.writes := by
  simp only [main_part1_ops0, List.Forall, StableHlo.nullary_writes, StableHlo.unary_writes, StableHlo.binary_writes, StableHlo.ternary_writes, Finset.mem_singleton]
  repeat' apply And.intro
  all_goals (intro w; fin_cases w <;> exact StableHlo.devRef_ne_of_ne (by decide))

theorem later_keeps : ∀ ops ∈ (later : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · exact (List.forall_iff_forall_mem.mp later0_keeps) op hop
  · exact (List.forall_iff_forall_mem.mp later1_keeps) op hop

/-! ## The arguments are written by no host operation -/

/-- No operation of a list writes the buffer `b` when each writes one buffer other than `b`. -/
macro "no_write" : tactic => `(tactic| (
  simp only [before, later, main_part0_ops0, main_part0_ops1, main_part0_ops2, main_part1_ops0,
    List.flatten_cons, List.flatten_nil, List.append_nil, List.cons_append, List.nil_append, List.Forall,
    StableHlo.nullary_writes, StableHlo.unary_writes, StableHlo.binary_writes, StableHlo.ternary_writes, Finset.mem_singleton]
  repeat' apply And.intro
  all_goals exact StableHlo.devRef_ne_of_ne (by decide)))

theorem before_arg0 : ((before (F := F)).flatten).Forall fun op => Proc.devRef .tc main_arg0 ∉ op.writes := by no_write
theorem before_arg1 : ((before (F := F)).flatten).Forall fun op => Proc.devRef .tc main_arg1 ∉ op.writes := by no_write
theorem before_arg2 : ((before (F := F)).flatten).Forall fun op => Proc.devRef .tc main_arg2 ∉ op.writes := by no_write
theorem before_arg3 : ((before (F := F)).flatten).Forall fun op => Proc.devRef .tc main_arg3 ∉ op.writes := by no_write
theorem later_arg0 : ((later (F := F)).flatten).Forall fun op => Proc.devRef .tc main_arg0 ∉ op.writes := by no_write
theorem later_arg2 : ((later (F := F)).flatten).Forall fun op => Proc.devRef .tc main_arg2 ∉ op.writes := by no_write
theorem later_arg3 : ((later (F := F)).flatten).Forall fun op => Proc.devRef .tc main_arg3 ∉ op.writes := by no_write

/-- The region finds each argument as launched. -/
theorem V_main_arg0 (c : Dev nD) : V m c main_arg0 = m ((c : Thread nD τ).loc main_arg0) :=
  StableHlo.after_of_forall_not_mem (b := Proc.devRef .tc main_arg0) _ _ (List.forall_iff_forall_mem.mp before_arg0)
theorem V_main_arg1 (c : Dev nD) : V m c main_arg1 = m ((c : Thread nD τ).loc main_arg1) :=
  StableHlo.after_of_forall_not_mem (b := Proc.devRef .tc main_arg1) _ _ (List.forall_iff_forall_mem.mp before_arg1)
theorem V_main_arg2 (c : Dev nD) : V m c main_arg2 = m ((c : Thread nD τ).loc main_arg2) :=
  StableHlo.after_of_forall_not_mem (b := Proc.devRef .tc main_arg2) _ _ (List.forall_iff_forall_mem.mp before_arg2)
theorem V_main_arg3 (c : Dev nD) : V m c main_arg3 = m ((c : Thread nD τ).loc main_arg3) :=
  StableHlo.after_of_forall_not_mem (b := Proc.devRef .tc main_arg3) _ _ (List.forall_iff_forall_mem.mp before_arg3)

/-- After the later operations each argument the region does not stage is still as launched. -/
theorem W_main_arg0 (dats : (p : Fin _) → (c : Dev nD) → Dat τ (Elt F) Unit ℕ (UR sig nD τ) ℕ (cfgs p) c) (c : Dev nD) :
    Pipeline.afterTail₀ cfgs dats 0 (V0 m) later c main_arg0 = m ((c : Thread nD τ).loc main_arg0) := by
  unfold Pipeline.afterTail₀
  rw [StableHlo.after_of_forall_not_mem (b := Proc.devRef .tc main_arg0) _ _ (List.forall_iff_forall_mem.mp later_arg0),
    Pipeline.withArrays_of_ne _ c (V0 m c) _ main_arg0 (by exact (by decide : ∀ w, Pipeline.arrRef spec0 w ≠ main_arg0))]
  exact V_main_arg0 m c
theorem W_main_arg2 (dats : (p : Fin _) → (c : Dev nD) → Dat τ (Elt F) Unit ℕ (UR sig nD τ) ℕ (cfgs p) c) (c : Dev nD) :
    Pipeline.afterTail₀ cfgs dats 0 (V0 m) later c main_arg2 = m ((c : Thread nD τ).loc main_arg2) := by
  unfold Pipeline.afterTail₀
  rw [StableHlo.after_of_forall_not_mem (b := Proc.devRef .tc main_arg2) _ _ (List.forall_iff_forall_mem.mp later_arg2),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) later c main_arg3 = m ((c : Thread nD τ).loc main_arg3) := by
  unfold Pipeline.afterTail₀
  rw [StableHlo.after_of_forall_not_mem (b := Proc.devRef .tc main_arg3) _ _ (List.forall_iff_forall_mem.mp later_arg3),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or not:
    where it is not fetched the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run that ends with every staged array at what
    the write-backs assemble and every other live buffer at what the later operations leave ends with the four
    arguments as launched: the second argument is a staged INPUT, never written back; the other three bypass the
    region and are written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) later))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_arg0 (Pipeline.mem_restRefs_of main_arg0 (by decide) (by decide))).trans (W_main_arg0 m dats c),
      ((h c).1 0).trans (((dats 0 c).arrAt_in 0 rfl _).trans ((hA c 0).trans (V_main_arg1 m c))),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c)⟩) h

/-! ## The body -/

/-- The whole 4096 × 256 block, and the whole 256 × 256 block, as the rectangles the body's accesses name. -/
abbrev rBig : Rect S4096x256 := Rect.unit (s := S4096x256) ![0, 0] S4096x256.size inb_S4096x256_S4096x256_0_0
abbrev rSq : Rect S256x256 := Rect.unit (s := S256x256) ![0, 0] S256x256.size inb_S256x256_S256x256_0_0

/-- The output staging buffer after the body, from the two input blocks: its one store, over the whole block. -/
def out0_2 (x0 : Vec F S4096x256 .f32) (x1 : Vec F S256x256 .f32) : Vec F S4096x256 .f32 :=
  View.canon [⟨rBig, k0_pay1 (View.ld x0 rBig) (View.ld x1 rSq)⟩]

/-- The one stored rectangle is the whole block, so it covers it. -/
theorem cover0_2 (p0 : Vec F S4096x256 .f32) (y : S4096x256.Idx) :
    ∃ pc ∈ ([⟨rBig, p0⟩] : List (View.Piece (Elt F) S4096x256 .f32)), y ∈ pc.1.set :=
  View.cover_of_tiled [⟨rBig, p0⟩] S4096x256.size (by rfl) y

set_option maxHeartbeats 1000000 in
/-- The body on whole staging buffers — the inputs' at `x0`, `x1`, the output's at anything — ends with the inputs'
    unchanged and the output's at `out0_2 x0 x1`. -/
theorem sound_kernel (c : Dev nD) (E : Set ℕ) (i : grid0.Coords) (arg1 : Memref sig .tc .vmem S4096x256 .f32) (harg1 : arg1.IsWhole)
    (arg2 : Memref sig .tc .vmem S256x256 .f32) (harg2 : arg2.IsWhole) (arg3 : Memref sig .tc .vmem S4096x256 .f32) (harg3 : arg3.IsWhole)
    (x0 : Vec F S4096x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__feature_matmul_kernel i arg1 harg1 arg2 harg2 arg3 harg3) K := by
  simp only [cc0__feature_matmul_kernel_eq_skeleton]; unfold cc0__feature_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- On core `c`: the arrays as the region finds them; after the body at point `t` each input buffer at its block and
    the output buffer at `out0_2` of the two input blocks; the invariant only what the body never touches; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program ends, every staged array at what
    the write-backs assemble from the proof data and every other live buffer as the later operations leave it. -/
theorem run_main : θ_run defs (onTc (τ := τ) (main (F := F))) (s₀ m ρ) (Pipeline.FramePost cfgs (dats m) 0 (Pipeline.afterTail₀ cfgs (dats m) 0 (V0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := later_sub) (hfresh := later_fresh) (hkeep := later_keeps)
    (hmain := hmain m Variants.none) (hA := A_eq m) (hΦ := fun _ _ => rfl)

/-- The frame claim of the program, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.Scores.lean ====
/-
  The scores array, as one function of the memory bank and the normalised rows, on the extended reals.

  Entry (i, j) of the scores is the inner product of row i of the bank A (65536 × 256) with row j of the normalised
  inputs X (256 × 256), divided by the temperature.  The kernel forms it as a product of A with the TRANSPOSE of X,
  contracted over the shared axis, times a constant that denotes 268435456/13421773; the reference as the product of
  X with the transpose of A, divided entrywise by the float 0.05 — whose word denotes 13421773/268435456 — and then
  transposed.  The two agree because the constant is exactly the reciprocal of that denotation, dividing by a nonzero
  real is multiplying by its reciprocal on every extended real, and each summand only changes the order of its two
  factors.  Nothing here needs the entries to be finite.
-/
import Idealize.ShloMosaic.Lib.ValueIdx
import Idealize.ShloMosaic.Lib.Pipeline.Value
import Idealize.ShloMosaic.PureOps.Ideal.Laws
import proofs.«159787_j57346403336648_1_alg».proof.Proof.LibMatmulPlain

noncomputable section

namespace Cert.Scores

open Idealize.ShloMosaic Idealize.ShloMosaic.ValueIdx

abbrev SBank : Shape := ⟨2, ![65536, 256]⟩
abbrev SBankT : Shape := ⟨2, ![256, 65536]⟩
abbrev SSq : Shape := ⟨2, ![256, 256]⟩
abbrev S0 : Shape := ⟨0, ![]⟩

/-- The reciprocal of the temperature, as the kernel's constant is read. -/
abbrev invT : EReal := ((268435456 / 13421773 : ℝ) : EReal)
/-- The temperature, as the reference's float denotes it. -/
abbrev temp : EReal := ((13421773 / 268435456 : ℝ) : EReal)

/-- The float word of 0.05 denotes 13421773 / 268435456. -/
theorem temp_word : Ideal.ofBits .f32 0x3D4CCCCD#32 = temp := by
  simp [Ideal.ofBits, Ideal.ieee, -EReal.coe_mul]; norm_num

/-- Multiplying by the reciprocal is dividing by the temperature, on every extended real. -/
theorem mul_invT (x : EReal) : x * invT = Ideal.div x temp := by
  rw [Ideal.div_coe (by norm_num : (13421773 / 268435456 : ℝ) ≠ 0)]
  congr 2
  norm_num

/-- The scores from the bank and the TRANSPOSED normalised rows (256 × 256, contraction axis first): entry (i, j) is
    the sum over l of A (i, l) · XT (l, j), times the reciprocal temperature. -/
def scoresT (A : FVec Ideal SBank .f32) (XT : FVec Ideal SSq .f32) : FVec Ideal SBank .f32 :=
  fun i => (∑ l : Fin 256, A (ix2 (⟨(i 0).val, idx2_lt0 i⟩ : Fin 65536) l) * XT (ix2 l (⟨(i 1).val, idx2_lt1 i⟩ : Fin 256))) * invT

theorem scoresT_apply (A : FVec Ideal SBank .f32) (XT : FVec Ideal SSq .f32) (p : Fin 65536) (q : Fin 256) :
    scoresT A XT (ix2 p q) = (∑ l : Fin 256, A (ix2 p l) * XT (ix2 l q)) * invT := rfl

/-- The reference's route to the same array: X times the transposed bank, over the temperature, transposed back. -/
theorem reference_route (D : DotDims SSq SBankT SBankT) (hD : Cert.Gcn.IsPlain D)
    (hA : SBank.Transposes [1, 0] SBankT) (hR : SBankT.Transposes [1, 0] SBank) (hX : SSq.Transposes [1, 0] SSq)
    (hB : S0.BroadcastsInDim SBankT (![] : Fin 0 → Fin SBankT.rank))
    (A : FVec Ideal SBank .f32) (X : FVec Ideal SSq .f32) :
    transpose SBank [1, 0] (Host.divf (F := Ideal) (Host.dotGeneral (F := Ideal) D none X (transpose SBankT [1, 0] A hA))
        (broadcastInDim SBankT ![] hB (constant (F := Ideal) S0 .f32 0x3D4CCCCD#32))) hR
      = scoresT A (transpose SSq [1, 0] X hX) := by
  funext i
  obtain ⟨p, q, rfl⟩ : ∃ (p : Fin 65536) (q : Fin 256), i = ix2 p q := ⟨i 0, i 1, eq_ix2 i⟩
  rw [scoresT_apply, mul_invT]
  rw [transpose_apply [1, 0] _ hR (ix2 p q) (ix2 q p) (fun b => match b with
    | ⟨0, _⟩ => rfl
    | ⟨1, _⟩ => rfl)]
  show Ideal.div (Host.dotGeneral (F := Ideal) D none X (transpose SBankT [1, 0] A hA) (ix2 q p))
      (broadcastInDim SBankT ![] hB (constant (F := Ideal) S0 .f32 0x3D4CCCCD#32) (ix2 q p)) = _
  rw [Cert.Gcn.dotGeneral_plain_apply D hD none X _ q p,
    broadcastInDim_apply _ hB _ (ix2 q p) (fun a => a.elim0) (fun a => a.elim0)]
  show Ideal.div _ (Ideal.ofBits .f32 0x3D4CCCCD#32) = _
  rw [temp_word]
  congr 1
  refine Finset.sum_congr rfl fun l _ => ?_
  rw [transpose_apply [1, 0] A hA (ix2 l p) (ix2 p l) (fun b => match b with
    | ⟨0, _⟩ => rfl
    | ⟨1, _⟩ => rfl),
    transpose_apply [1, 0] X hX (ix2 l q) (ix2 q l) (fun b => match b with
    | ⟨0, _⟩ => rfl
    | ⟨1, _⟩ => rfl)]
  exact mul_comm _ _

end Cert.Scores

end
-- ==== Proof.KernelValue.lean ====
/-
  What the kernel region leaves in the scores array, on the extended reals.

  At grid point t the body stores, over the whole 4096 × 256 output block, the product of the staged block of the bank
  (rows 4096·t … 4096·t + 4095) with the staged 256 × 256 transposed rows, scaled by the named constant.  A change of
  float format is the identity on the extended reals and the product into the zero accumulator is the plain sum over
  the contracted coordinate, so entry (p, q) of the block is the sum over l of bank (4096·t + p, l) · rowsT (l, q),
  times the constant's value — entry (4096·t + p, q) of ONE function of the two arrays.  The sixteen blocks are
  written back at every point and tile the array (row r lies in block r / 4096), so the array ends at that function.
-/
import proofs.«159787_j57346403336648_1_alg».proof.Proof.FrameIdeal
import proofs.«159787_j57346403336648_1_alg».proof.Proof.Scores
import Idealize.ShloMosaic.Lib.Pipeline.Value
import Idealize.ShloMosaic.Lib.ValueIdx
import Idealize.ShloMosaic.PureOps.IdealRules

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The body's scale constant denotes the reciprocal of the temperature's float. -/
theorem named_val : Named.named (F := Ideal) κ "fold_c_268435456_13421773" (φ := .f32) 0x41A00000#32 = Cert.Scores.invT :=
  IdealRules.named_const.ideal_named_scalar _ _ _ _ rfl

/-- The body's stored value at entry (p, q) of its block: the inner product of row p of the bank block with column q
    of the transposed rows, times the reciprocal temperature. -/
theorem pay_apply (x0 : Vec Ideal S4096x256 .f32) (x1 : Vec Ideal S256x256 .f32) (p : Fin 4096) (q : Fin 256) :
    k0_pay1 (F := Ideal) x0 x1 (ix2 p q) = (∑ l : Fin 256, x0 (ix2 p l) * x1 (ix2 l q)) * Cert.Scores.invT := by
  unfold k0_pay1
  refine (mulf_apply _ _ (ix2 p q)).trans ?_
  refine congrArg₂ (· * ·) ?_ named_val
  refine (Cert.Gcn.matmul_plain_apply dot_S4096x256_S256x256_S4096x256_1_0_0_1_n_n ⟨rfl, rfl, rfl, rfl, rfl, rfl⟩ none _ _ p q).trans ?_
  refine Finset.sum_congr rfl fun l _ => ?_
  show x0 (ix2 p l) * (shapeCast S256x256 x1 shapeCasts_S256x256_S256x256) (ix2 l q) = _
  rw [shapeCast_self]

/-- The printed block indices over the grid: the bank's and the scores' block row is the point, their block column
    zero; the transposed rows' block is always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The bank window's block at point t is rows 4096·t … of the bank. -/
theorem iblk0_apply (c : Dev nD) (t : Fin cfg0.N) (p : Fin 4096) (l : Fin 256) (k : Fin 65536) (hk : k.val = 4096 * t.val + p.val) :
    (iblk m c 0 t : Vec Ideal S4096x256 .f32) (ix2 p l) = (V m c main_arg1 : S65536x256.Idx → Elt Ideal .f32) (ix2 k l) := by
  obtain ⟨h0, h1, -⟩ := idx_facts t
  unfold iblk
  rw [View.read_apply]
  show V m c main_arg1 _ = V m c main_arg1 _
  congr 1
  funext a
  apply Fin.ext
  match a with
  | ⟨0, _⟩ => show win0_0.index t 0 * 4096 + 1 * p.val = k.val; rw [h0, hk]; omega
  | ⟨1, _⟩ => show win0_0.index t 1 * 256 + 1 * l.val = l.val; rw [h1]; omega

/-- The transposed rows' window's block is the whole array, at every point. -/
theorem iblk1_apply (c : Dev nD) (t : Fin cfg0.N) (l q : Fin 256) :
    (iblk m c 1 t : Vec Ideal S256x256 .f32) (ix2 l q) = (V m c main_v5 : S256x256.Idx → Elt Ideal .f32) (ix2 l q) := by
  obtain ⟨-, -, h0, h1, -⟩ := idx_facts t
  unfold iblk
  rw [View.read_apply]
  show V m c main_v5 _ = V m c main_v5 _
  congr 1
  funext a
  apply Fin.ext
  match a with
  | ⟨0, _⟩ => show win0_1.index t 0 * 256 + 1 * l.val = l.val; rw [h0]; omega
  | ⟨1, _⟩ => show win0_1.index t 1 * 256 + 1 * q.val = q.val; rw [h1]; omega

/-- The scores array the region leaves, as one function of the bank and the transposed rows as the region finds them. -/
abbrev G (c : Dev nD) : S65536x256.Idx → Elt Ideal .f32 :=
  Cert.Scores.scoresT (V m c main_arg1) (V m c main_v5)

/-- Entry j of what point t stores is entry (block t, j) of `G`. -/
theorem point_eq (c : Dev nD) (t : Fin cfg0.N) (j : S4096x256.Idx) :
    k0_pay1 (F := Ideal) (iblk m c 0 t) (iblk m c 1 t) j = G m c (((cfg0.win 2).blk t).view.emb j) := by
  obtain ⟨p, q, rfl⟩ : ∃ (p : Fin 4096) (q : Fin 256), j = ix2 p q := ⟨j 0, j 1, eq_ix2 j⟩
  have hN : cfg0.N = 16 := N_0
  have hk : 4096 * t.val + p.val < 65536 := by have := t.isLt; have := p.isLt; omega
  obtain ⟨-, -, -, -, h0, h1⟩ := idx_facts t
  have he : ((cfg0.win 2).blk t).view.emb (ix2 p q) = ix2 (⟨4096 * t.val + p.val, hk⟩ : Fin 65536) q := by
    funext a
    apply Fin.ext
    match a with
    | ⟨0, _⟩ => show win0_2.index t 0 * 4096 + 1 * p.val = 4096 * t.val + p.val; rw [h0]; omega
    | ⟨1, _⟩ => show win0_2.index t 1 * 256 + 1 * q.val = q.val; rw [h1]; omega
  rw [he]
  refine (pay_apply (iblk m c 0 t) (iblk m c 1 t) p q).trans ?_
  refine ((Cert.Scores.scoresT_apply (V m c main_arg1) (V m c main_v5) ⟨4096 * t.val + p.val, hk⟩ q).trans ?_).symm
  refine congrArg (· * Cert.Scores.invT) (Finset.sum_congr rfl fun l _ => ?_)
  rw [iblk0_apply m c t p l ⟨4096 * t.val + p.val, hk⟩ rfl, iblk1_apply m c t l q]

/-- What point t writes back is block t of `G`. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz]
  simp only [View.ld_unit_zero (S := S4096x256) hz, View.ld_unit_zero (S := S256x256) hz]
  funext j
  exact point_eq m c t j

/-- An index of the scores array is in point t's block iff each coordinate is in the block's range on its axis. -/
theorem mem_blk (t : Fin cfg0.N) (i : S65536x256.Idx) :
    i ∈ ((cfg0.win 2).blk t).view.set ↔ ∀ a : Fin 2, win0_2.index t a * S4096x256.size a ≤ (i a).val ∧ (i a).val < win0_2.index t a * S4096x256.size a + S4096x256.size a := by
  show i ∈ ((View.whole main_v6).slice (win0_2.rect t)).set ↔ _
  rw [View.set_slice_whole, Rect.mem_set_unit]
  exact Iff.rfl

/-- Every index lies in the block of the point its row divided by 4096 names. -/
theorem cover (i : S65536x256.Idx) : ∃ t : Fin cfg0.N, (cfg0.win 2).flush t = true ∧ i ∈ ((cfg0.win 2).blk t).view.set := by
  have hi0 : (i 0).val < 65536 := (i 0).isLt
  have hi1 : (i 1).val < 256 := (i 1).isLt
  have hN : cfg0.N = 16 := N_0
  have ht : (i 0).val / 4096 < cfg0.N := by omega
  obtain ⟨-, -, -, -, h0, h1⟩ := idx_facts ⟨(i 0).val / 4096, ht⟩
  refine ⟨⟨(i 0).val / 4096, ht⟩, flush0_2 _, ?_⟩
  rw [mem_blk]
  intro a
  match a with
  | ⟨0, _⟩ =>
    show win0_2.index ⟨(i 0).val / 4096, ht⟩ (0 : Fin 2) * 4096 ≤ (i 0).val ∧ (i 0).val < win0_2.index ⟨(i 0).val / 4096, ht⟩ (0 : Fin 2) * 4096 + 4096
    rw [h0]; show (i 0).val / 4096 * 4096 ≤ (i 0).val ∧ (i 0).val < (i 0).val / 4096 * 4096 + 4096; omega
  | ⟨1, _⟩ =>
    show win0_2.index ⟨(i 0).val / 4096, ht⟩ (1 : Fin 2) * 256 ≤ (i 1).val ∧ (i 1).val < win0_2.index ⟨(i 0).val / 4096, ht⟩ (1 : Fin 2) * 256 + 256
    rw [h1]; omega

/-- The scores array after the region is `G`. -/
theorem final (c : Dev nD) : (dats m 0 c).arrAt 2 cfg0.N = G m c :=
  (dats m 0 c).arrAt_eq_of_cover 2 (G m c) (fun t _ => flushed_eq m c t) (fun i => cover i)

end Cert.KernelIdeal.Val

end
-- ==== Proof.KernelRows.lean ====
/-
  The transposed normalised rows, as the kernel region finds them.

  The eleven host operations before the region square the first argument entrywise, sum each row, take the square
  root, take the larger of that and the float 1e-12, divide each row of the argument by it, and transpose.  The
  second staged array therefore holds, when the region is entered, the transpose of that quotient of the launch
  contents of the first argument: the operations are read back one by one, none evaluated.
-/
import proofs.«159787_j57346403336648_1_alg».proof.Proof.FrameIdeal
import Idealize.ShloMosaic.Lib.StableHlo.Run

noncomputable section

namespace Cert.KernelIdeal.Rows

open Cert.KernelIdeal Cert.KernelIdeal.Gen Cert.KernelIdeal.Fr
open Idealize.ShloMosaic Idealize.ShloMosaic.TcCoe Idealize.SL.Sem Idealize.ShloMosaic.StableHlo

variable {F : FTy → Type} [FloatOps F] [Named F]
variable (m : (ℓ : Loc nD τ sig) → Buf (Elt F) ℓ)

/-- Each row of `a0` over the larger of its Euclidean norm and the float 1e-12. -/
def rows (a0 : (⟨S256x256, .f32⟩ : BufTy).Contents (Elt F)) : (⟨S256x256, .f32⟩ : BufTy).Contents (Elt F) :=
  Host.divf a0 (broadcastInDim S256x256 ![0, 1] bcast_S256x1_S256x256_0_1 (maximumf (Host.sqrt (broadcastInDim S256x1 ![0] bcast_S256_S256x1_0 (Host.reduceAdd (mulf a0 a0) (constant S_ .f32 0x00000000#32) reducesTo_S256x256_S256_d1 h_S_))) (broadcastInDim S256x1 ![] bcast_S_S256x1 (constant S_ .f32 0x2B8CBCCC#32))))

/-- The second staged array at the region's entry is the transpose of the normalised rows of the first argument. -/
theorem V_main_v5 (c : Dev nD) :
    V m c main_v5 = transpose S256x256 [1, 0] (rows (m ((c : Thread nD τ).loc main_arg0))) transposes_S256x256_S256x256_1_0 := by
  show StableHlo.after (List.flatten [main_part0_ops0, main_part0_ops1]) (fun b => m (c, b)) (Proc.devRef .tc main_v5) = _
  simp only [main_part0_ops0, main_part0_ops1, List.flatten_cons, List.flatten_nil, List.append_nil, List.cons_append, List.nil_append]
  after_results
  try simp only [TRef.ofBuf, TRef.toBuf, cast_eq]
  rfl

end Cert.KernelIdeal.Rows

end
-- ==== Proof.TailBridge.lean ====
/-
  The seventy-two host operations that follow the kernel region, read as ONE function of three arrays — the scores,
  the labels and the indexes — and the reference's result as the same function of its own scores.

  After the scores both programs do the same thing: add each row of the scores into the row of its label, count the
  labels, divide where the count is positive, exponentiate under the mask of positive counts, normalise by the row
  sums plus 1e-6, take logarithms of that plus 1e-6, pick entry (b, label of index b) in each row, and average with a
  minus sign.  None of that is opened here.  The later operations are run from ANY contents of the live buffers; if
  those contents hold at the scores buffer what the reference computes for its scores, and the same labels and
  indexes, the result buffer ends at the reference's result term, because the two terms are then the same operations
  applied to the same operands.  This holds for every float family.
-/
import proofs.«159787_j57346403336648_1_alg».proof.Proof.Gen.KernelIdeal.Launch
import proofs.«159787_j57346403336648_1_alg».proof.Proof.RefRun
import Idealize.ShloMosaic.Lib.StableHlo.Run

noncomputable section

namespace Cert.Bridge

open Idealize.ShloMosaic Idealize.ShloMosaic.TcCoe Idealize.SL.Sem Idealize.ShloMosaic.StableHlo

variable {F : FTy → Type} [FloatOps F] [Named F]

section Reference

open Cert.ReferenceIdeal Cert.ReferenceIdeal.Gen

/-- The reference's normalised rows: each row of its first argument over the larger of the row's Euclidean norm and
    the float 1e-12. -/
def refRows (a0 : (⟨S256x256, .f32⟩ : BufTy).Contents (Elt F)) : (⟨S256x256, .f32⟩ : BufTy).Contents (Elt F) :=
  Host.divf a0 (broadcastInDim S256x256 ![0, 1] bcast_S256x1_S256x256_0_1 (maximumf (Host.sqrt (broadcastInDim S256x1 ![0] bcast_S256_S256x1_0 (Host.reduceAdd (mulf a0 a0) (constant S_ .f32 0x00000000#32) reducesTo_S256x256_S256_d1 h_S_))) (broadcastInDim S256x1 ![] bcast_S_S256x1 (constant S_ .f32 0x2B8CBCCC#32))))

/-- The reference's scores: the normalised rows times the transposed bank, over the float 0.05, transposed. -/
def refScores (a0 : (⟨S256x256, .f32⟩ : BufTy).Contents (Elt F)) (a1 : (⟨S65536x256, .f32⟩ : BufTy).Contents (Elt F)) :
    (⟨S65536x256, .f32⟩ : BufTy).Contents (Elt F) :=
  transpose S65536x256 [1, 0] (Host.divf (Host.dotGeneral dot_S256x256_S256x65536_S256x65536_1_0_0_1_n_n none (refRows a0) (transpose S256x65536 [1, 0] a1 transposes_S65536x256_S256x65536_1_0)) (broadcastInDim S256x65536 ![] bcast_S_S256x65536 (constant S_ .f32 0x3D4CCCCD#32))) transposes_S256x65536_S65536x256_1_0

end Reference

set_option maxRecDepth 16384 in
set_option maxHeartbeats 40000000 in
/-- From any contents `W` of the live buffers that hold the reference's scores at the scores buffer and the
    reference's labels and indexes at the third and fourth arguments, the later operations leave the reference's
    result in the result buffer. -/
theorem later_result (W : Valuation Cert.KernelIdeal.τ Cert.KernelIdeal.sig (Elt F))
    (mR : (ℓ : Loc Cert.ReferenceIdeal.nD Cert.ReferenceIdeal.τ Cert.ReferenceIdeal.sig) → Buf (Elt F) ℓ) (c : Dev Cert.ReferenceIdeal.nD)
    (hs : W (Proc.devRef .tc Cert.KernelIdeal.main_v6)
      = refScores (mR ((c.tc : Thread Cert.ReferenceIdeal.nD Cert.ReferenceIdeal.τ).loc Cert.ReferenceIdeal.main_arg0))
          (mR ((c.tc : Thread Cert.ReferenceIdeal.nD Cert.ReferenceIdeal.τ).loc Cert.ReferenceIdeal.main_arg1)))
    (h2 : W (Proc.devRef .tc Cert.KernelIdeal.main_arg2) = mR ((c.tc : Thread Cert.ReferenceIdeal.nD Cert.ReferenceIdeal.τ).loc Cert.ReferenceIdeal.main_arg2))
    (h3 : W (Proc.devRef .tc Cert.KernelIdeal.main_arg3) = mR ((c.tc : Thread Cert.ReferenceIdeal.nD Cert.ReferenceIdeal.τ).loc Cert.ReferenceIdeal.main_arg3)) :
    StableHlo.after (List.flatten [(Cert.KernelIdeal.Gen.main_part0_ops2 : List (HloOp Cert.KernelIdeal.τ Cert.KernelIdeal.sig (Elt F))), Cert.KernelIdeal.Gen.main_part1_ops0]) W
        (Proc.devRef .tc Cert.KernelIdeal.main_v62)
      = Cert.ReferenceIdeal.RunP.res_main_v65 mR c := by
  simp only [Cert.KernelIdeal.Gen.main_part0_ops2, Cert.KernelIdeal.Gen.main_part1_ops0, List.flatten_cons, List.flatten_nil, List.append_nil,
    List.cons_append, List.nil_append]
  after_results_simp
  -- the gather's index pairs (row number, label at the row's index) are a two-column array: each column's operations are read back in turn
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rw [hs, h2, h3]
  unfold Cert.ReferenceIdeal.RunP.res_main_v65 refScores refRows
  rfl

end Cert.Bridge

end
-- ==== Proof.Claims.lean ====
/-
  The five claims.

  Frames: the two kernel programs by the launch theorem for "host operations, a region, host operations"; the reference
  by its run with the result dropped.  The idealization rewrote one constant: the body's scale 20.0 is read as
  268435456/13421773, the exact reciprocal of what the reference's float 0.05 denotes, and the claim for that rewrite
  is the constant table's own entry.

  The value claim.  The kernel program's result buffer ends as the seventy-two later operations leave it, run from the
  region's exit: the scores array at the sum over the shared axis of bank · transposed rows times that reciprocal,
  the labels and the indexes as launched.  The reference's result is the same seventy-two operations applied to ITS
  scores — rows · transposed bank, over the float 0.05, transposed — and to the same labels and indexes.  The two
  scores arrays are equal entry by entry: dividing by a nonzero real is multiplying by its reciprocal on every
  extended real, and each summand only swaps its two factors.  So the two results are one term.  The precondition is
  never opened: no step needs an entry to be finite.
-/
import proofs.«159787_j57346403336648_1_alg».proof.Defs
import proofs.«159787_j57346403336648_1_alg».proof.Proof.FrameBits
import proofs.«159787_j57346403336648_1_alg».proof.Proof.KernelValue
import proofs.«159787_j57346403336648_1_alg».proof.Proof.KernelRows
import proofs.«159787_j57346403336648_1_alg».proof.Proof.TailBridge
import proofs.«159787_j57346403336648_1_alg».proof.Proof.Gen.Kernel
import proofs.«159787_j57346403336648_1_alg».proof.Proof.Gen.KernelIdeal
import proofs.«159787_j57346403336648_1_alg».proof.Proof.Gen.ReferenceIdeal
import proofs.«159787_j57346403336648_1_alg».proof.Proof.Gen.Pre_finite_inputs

noncomputable section

namespace Cert.Proof.Claims

open Idealize.ShloMosaic Idealize.ShloMosaic.TcCoe Idealize.SL.Sem

section Value

open Cert.KernelIdeal Cert.KernelIdeal.Gen Cert.KernelIdeal.Fr

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The two programs normalise the rows by the same operations. -/
theorem rows_eq (a0 : (⟨S256x256, .f32⟩ : BufTy).Contents (Elt Ideal)) :
    Cert.KernelIdeal.Rows.rows (F := Ideal) a0 = Cert.Bridge.refRows (F := Ideal) a0 := rfl

/-- At the region's exit the scores buffer holds the reference's scores of the same first two arguments. -/
theorem scores_eq (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1)) :
    Pipeline.withArrays spec0 c (V0 m c) (fun w => (dats m 0 c).arrAt w cfg0.N) (Proc.devRef .tc main_v6)
      = Cert.Bridge.refScores (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)) := by
  refine (Pipeline.withArrays_arr spec0 launch0.win.arr_inj c _ _ 2).trans ?_
  refine (Cert.KernelIdeal.Val.final m c).trans ?_
  show Cert.Scores.scoresT (V m c main_arg1) (V m c main_v5) = _
  rw [V_main_arg1, Cert.KernelIdeal.Rows.V_main_v5, h0, h1, rows_eq]
  unfold Cert.Bridge.refScores
  exact (Cert.Scores.reference_route Cert.ReferenceIdeal.dot_S256x256_S256x65536_S256x65536_1_0_0_1_n_n ⟨rfl, rfl, rfl, rfl, rfl, rfl⟩ _ _ _ _ _ _).symm

/-- The kernel program's result term is the reference's. -/
theorem result_eq (c : Dev nD)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)) :
    Pipeline.afterTail₀ cfgs (dats m) 0 (V0 m) later c main_v62 = Cert.ReferenceIdeal.RunP.res_main_v65 m' c := by
  unfold Pipeline.afterTail₀
  refine Cert.Bridge.later_result _ m' c (scores_eq m m' c h.1 h.2.1) ?_ ?_
  · refine (Pipeline.withArrays_of_ne _ c (V0 m c) _ main_arg2 (by exact (by decide : ∀ w, Pipeline.arrRef spec0 w ≠ main_arg2))).trans ?_
    exact (V_main_arg2 m c).trans h.2.2.1.symm
  · refine (Pipeline.withArrays_of_ne _ c (V0 m c) _ main_arg3 (by exact (by decide : ∀ w, Pipeline.arrRef spec0 w ≠ main_arg3))).trans ?_
    exact (V_main_arg3 m c).trans h.2.2.2.symm

end Value

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.RunP.run (F := Ideal) m ρ)

/-- The one rewrite of the idealization: the constant table gives the body's scale the value 268435456/13421773. -/
theorem preserves : Cert.preserves_Kernel_KernelIdeal :=
  IdealRules.named_const.statement Cert.KernelIdeal.κ "fold_c_268435456_13421773" .f32 0x41A00000#32 ((268435456 / 13421773 : ℝ) : EReal) rfl

open Cert.KernelIdeal Cert.KernelIdeal.Gen Cert.KernelIdeal.Fr in
theorem algebraic : Cert.algebraic_KernelIdeal_ReferenceIdeal := by
  intro m ρ m' ρ' _ hagree
  refine ⟨fun c => Pipeline.afterTail₀ cfgs (dats m) 0 (V0 m) later c main_v62, ?_, ?_⟩
  · refine (θ_run Cert.KernelIdeal.defs _ _).mono (fun _ h c => ?_) (run_main m ρ)
    exact ⟨(h c).2 main_v62 (Pipeline.mem_restRefs_of main_v62 (by decide) (by decide)),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩
  · refine (θ_run Cert.ReferenceIdeal.defs _ _).mono (fun _ h c => ⟨(h c).1.trans (result_eq m m' c (hagree c)).symm, (h c).2⟩)
      (Cert.ReferenceIdeal.RunP.run (F := Ideal) m' ρ')

end Cert.Proof.Claims

end
-- ==== Proof.lean ====
/-
  The certificate's claim: the two kernel programs and the reference run to their ends, fault nowhere and leave their
  arguments unchanged; the idealized kernel program is the printed one with its scale constant read as the exact
  reciprocal of the temperature's float; and on the extended reals the idealized kernel program and the idealized
  reference, run from memories that agree on the four arguments, end with equal results.  The parts are proved in
  Proof/Claims.lean; here they are put together under the programs' stated side conditions.
-/
import proofs.«159787_j57346403336648_1_alg».proof.Defs
import proofs.«159787_j57346403336648_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
